-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S1x512x256 : Shape := ⟨3, ![1, 512, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S1x512x256 : S_.BroadcastsInDim S1x512x256 (![] : Fin 0 → Fin S1x512x256.rank)
  reducesTo_S1x512x256_S_d0_1_2 : S1x512x256.ReducesTo [0, 1, 2] S_

variable [Facts]

def fn {F : FTy → Type} [FloatOps F] (main_arg0 : FVec F S16x2048x256 .f32) (main_arg1 : FVec F S1x512x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S1x512x256 .f32 := Host.absf main_arg1
  let main_cst_0 : FVec F S_ .f32 := constant S_ .f32 0x7F800000#32
  let main_v5 : FVec F S1x512x256 .f32 := broadcastInDim S1x512x256 ![] bcast_S_S1x512x256 main_cst_0
  let main_v6 : IVec S1x512x256 1 := cmpf .olt main_v4 main_v5
  let main_c_1 : IVec S_ 1 := constantI S_ 1 1#1
  let main_v7 : IVec S_ 1 := (fun x v => Host.reduce IntOp.andi x v reducesTo_S1x512x256_S_d0_1_2 h_S_) main_v6 main_c_1
  let main_v8 : IVec S_ 1 := andi main_v3 main_v7
  main_v8
-- ==== Kernel.lean ====
abbrev S16x2048x256 : Shape := ⟨3, ![16, 2048, 256]⟩
abbrev S1x512x256 : Shape := ⟨3, ![1, 512, 256]⟩
abbrev S32768x256 : Shape := ⟨2, ![32768, 256]⟩
abbrev S512x256 : Shape := ⟨2, ![512, 256]⟩
abbrev S_ : Shape := ⟨0, ![]⟩
abbrev S512 : Shape := ⟨1, ![512]⟩
abbrev S512x1 : Shape := ⟨2, ![512, 1]⟩
abbrev S256x512 : Shape := ⟨2, ![256, 512]⟩
abbrev S1x512 : Shape := ⟨2, ![1, 512]⟩
abbrev S32768x512 : Shape := ⟨2, ![32768, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩
abbrev S16x2048x512 : Shape := ⟨3, ![16, 2048, 512]⟩

abbrev nBuf : Space → Nat
  | .hbm => 20
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S1x512x256, .f32⟩
  | .hbm, ⟨2, _⟩ => ⟨S32768x256, .f32⟩
  | .hbm, ⟨3, _⟩ => ⟨S512x256, .f32⟩
  | .hbm, ⟨4, _⟩ => ⟨S512x256, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S256x512, .f32⟩
  | .hbm, ⟨16, _⟩ => ⟨S256x512, .bf16⟩
  | .hbm, ⟨17, _⟩ => ⟨S1x512, .f32⟩
  | .hbm, ⟨18, _⟩ => ⟨S32768x512, .f32⟩
  | .hbm, ⟨19, _⟩ => ⟨S16x2048x512, .f32⟩
  | .local _ .vmem, ⟨0, _⟩ => ⟨S2048x256, .f32⟩
  | .local _ .vmem, ⟨1, _⟩ => ⟨S2048x256, .f32⟩
  | .local _ .vmem, ⟨2, _⟩ => ⟨S256x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x2048x256_S32768x256 : S16x2048x256.ShapeCasts S32768x256
  shapeCasts_S1x512x256_S512x256 : S1x512x256.ShapeCasts S512x256
  reducesTo_S512x256_S512_d1 : S512x256.ReducesTo [1] S512
  h_S_ : 0 < S_.numel
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S512x256_S256x512_1_0 : S512x256.Transposes [1, 0] S256x512
  bitsLt_bf16_f32 : FTy.bits .bf16 < FTy.bits .f32
  shapeCasts_S512x1_S1x512 : S512x1.ShapeCasts S1x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S32768x512_S16x2048x512 : S32768x512.ShapeCasts S16x2048x512
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S1x512x256 : Shape := ⟨3, ![1, 512, 256]⟩
abbrev S_ : Shape := ⟨0, ![]⟩
abbrev S16x2048 : Shape := ⟨2, ![16, 2048]⟩
abbrev S16x2048x1 : Shape := ⟨3, ![16, 2048, 1]⟩
abbrev S512x256 : Shape := ⟨2, ![512, 256]⟩
abbrev S512 : Shape := ⟨1, ![512]⟩
abbrev S512x1 : Shape := ⟨2, ![512, 1]⟩
abbrev S16x2048x512 : Shape := ⟨3, ![16, 2048, 512]⟩
abbrev S1x1x512 : Shape := ⟨3, ![1, 1, 512]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S1x512x256, .f32⟩
  | .hbm, ⟨2, _⟩ => ⟨S16x2048x256, .f32⟩
  | .hbm, ⟨3, _⟩ => ⟨S_, .f32⟩
  | .hbm, ⟨4, _⟩ => ⟨S16x2048, .f32⟩
  | .hbm, ⟨5, _⟩ => ⟨S16x2048x1, .f32⟩
  | .hbm, ⟨6, _⟩ => ⟨S16x2048x1, .f32⟩
  | .hbm, ⟨7, _⟩ => ⟨S16x2048x256, .f32⟩
  | .hbm, ⟨8, _⟩ => ⟨S16x2048x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x1, .f32⟩
  | .hbm, ⟨15, _⟩ => ⟨S512x256, .f32⟩
  | .hbm, ⟨16, _⟩ => ⟨S512x256, .f32⟩
  | .hbm, ⟨17, _⟩ => ⟨S16x2048x256, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S512x256, .f32⟩
  | .hbm, ⟨22, _⟩ => ⟨S_, .f32⟩
  | .hbm, ⟨23, _⟩ => ⟨S512, .f32⟩
  | .hbm, ⟨24, _⟩ => ⟨S16x2048x512, .f32⟩
  | .hbm, ⟨25, _⟩ => ⟨S1x1x512, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S_, .f32⟩
  | .hbm, ⟨30, _⟩ => ⟨S16x2048x512, .f32⟩
  | .hbm, ⟨31, _⟩ => ⟨S16x2048x512, .f32⟩
  | .hbm, ⟨32, _⟩ => ⟨S16x2048x512, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x256_0_1_2 : S16x2048x1.BroadcastsInDim S16x2048x256 (![0, 1, 2] : Fin 3 → Fin S16x2048x256.rank)
  shapeCasts_S1x512x256_S512x256 : S1x512x256.ShapeCasts S512x256
  reducesTo_S512x256_S512_d1 : S512x256.ReducesTo [1] S512
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S512_S1x1x512_2 : S512.BroadcastsInDim S1x1x512 (![2] : Fin 1 → Fin S1x1x512.rank)
  bcast_S16x2048x1_S16x2048x512_0_1_2 : S16x2048x1.BroadcastsInDim S16x2048x512 (![0, 1, 2] : Fin 3 → Fin S16x2048x512.rank)
  bcast_S1x1x512_S16x2048x512_0_1_2 : S1x1x512.BroadcastsInDim S16x2048x512 (![0, 1, 2] : Fin 3 → Fin S16x2048x512.rank)
  bcast_S_S16x2048x512 : S_.BroadcastsInDim S16x2048x512 (![] : Fin 0 → Fin S16x2048x512.rank)
  dot_S16x2048x256_S512x256_S16x2048x512_2_1_01_0_n_n_wf : DotDims.WF S16x2048x256 S512x256 S16x2048x512 [2] [1] [0, 1] [0] [] []

variable [Facts₀]

def dot_S16x2048x256_S512x256_S16x2048x512_2_1_01_0_n_n : DotDims S16x2048x256 S512x256 S16x2048x512 where
  lhsContracting := [2]
  rhsContracting := [1]
  lhsNonContracting := [0, 1]
  rhsNonContracting := [0]
  lhsBatch := []
  rhsBatch := []
  wf := dot_S16x2048x256_S512x256_S16x2048x512_2_1_01_0_n_n_wf

class Facts : Prop extends Facts₀ where

variable [Facts]
-- ==== Proof.UnitDistance.lean ====
/-
  The distance table between unit vectors, as a function of the two argument arrays.

  For a vector v over an index set of n coordinates write u(v) = v / |v|, coordinate by coordinate
  u(v)_d = v_d / sqrt (sum_e v_e * v_e), on the extended reals with the ideal division and square root.
  The squared distance between the unit vectors of a feature row x and a codebook row c is written in the
  expanded form both programs use:

      dist x c = (sum_d u(x)_d * u(x)_d + sum_d u(c)_d * u(c)_d) - 2 * sum_d u(x)_d * u(c)_d .

  Nothing is simplified: the two squared lengths are NOT replaced by 1 (they are 1 only for a finite nonzero
  row), the association of the outer sum and difference is kept, and the factor 2 stays the binary word both
  programs print. So the statement needs no finiteness of the inputs: it is one expression tree.
-/
import Idealize.ShloMosaic.PureOps.Ideal
import Idealize.ShloMosaic.Lib.ValueIdx

noncomputable section

open scoped BigOperators

namespace Cert.UnitDistance

open Idealize.ShloMosaic Idealize.ShloMosaic.ValueIdx

/-- Coordinate `d` of the vector `v` divided by its Euclidean length. -/
def unitCoord {n : Nat} (v : Fin n → EReal) (d : Fin n) : EReal :=
  Ideal.div (v d) (Ideal.sqrt (∑ e : Fin n, v e * v e))

/-- The squared length of `v / |v|`, as the sum of its squared coordinates. -/
def unitSq {n : Nat} (v : Fin n → EReal) : EReal :=
  ∑ d : Fin n, unitCoord v d * unitCoord v d

/-- The factor two, as the binary32 word both programs carry. -/
def twoWord : EReal := Ideal.ofBits .f32 0x40000000#32

/-- The squared distance between `x / |x|` and `c / |c|`, expanded. -/
def unitDist {n : Nat} (x c : Fin n → EReal) : EReal :=
  (unitSq x + unitSq c) - twoWord * ∑ d : Fin n, unitCoord x d * unitCoord c d

/-- Row `(b, s)` of the feature array. -/
def featRow (X : FVec Ideal ⟨3, ![16, 2048, 256]⟩ .f32) (b : Fin 16) (s : Fin 2048) : Fin 256 → EReal :=
  fun d => X (ix3 b s d)

/-- Row `k` of the codebook (its leading axis has one entry). -/
def codeRow (C : FVec Ideal ⟨3, ![1, 512, 256]⟩ .f32) (k : Fin 512) : Fin 256 → EReal :=
  fun d => C (ix3 (0 : Fin 1) k d)

/-- THE RESULT: entry `(b, s, k)` is the distance between the unit vectors of feature row `(b, s)` and
    codebook row `k`. -/
def distTable (X : FVec Ideal ⟨3, ![16, 2048, 256]⟩ .f32) (C : FVec Ideal ⟨3, ![1, 512, 256]⟩ .f32) :
    FVec Ideal ⟨3, ![16, 2048, 512]⟩ .f32 :=
  fun i => unitDist (featRow X (i 0) (i 1)) (codeRow C (i 2))

/-- The same table over the flattened rows, from the three arrays the kernel's windows stage: the features
    as 32768 rows, the unit codebook TRANSPOSED (`T (d, k)` is coordinate `d` of unit codebook row `k`), and
    the codebook rows' squared unit lengths as a one-row array. Entry `(r, k)`:
    `(|u(x_r)|² + Q k) - 2 * sum_d u(x_r)_d * T (d, k)`. -/
def flatTable (X : FVec Ideal ⟨2, ![32768, 256]⟩ .f32) (T : FVec Ideal ⟨2, ![256, 512]⟩ .bf16)
    (Q : FVec Ideal ⟨2, ![1, 512]⟩ .f32) : FVec Ideal ⟨2, ![32768, 512]⟩ .f32 :=
  fun i => (unitSq (fun d : Fin 256 => X (ix2 (i 0) d)) + Q (ix2 (0 : Fin 1) (i 1)))
    - twoWord * ∑ d : Fin 256, unitCoord (fun e : Fin 256 => X (ix2 (i 0) e)) d * T (ix2 d (i 1))

end Cert.UnitDistance

end
-- ==== Proof.ReferenceTable.lean ====
/-
  The reference's result, stage by stage, is the distance table.

  The reference divides every feature row and every codebook row by the root of its sum of squares, sums the
  squares of the quotients again (per feature row, per codebook row), contracts the two unit arrays over the
  coordinate axis, and combines the three as (|u(x)|² + |u(c)|²) - 2 * (u(x) . u(c)). Each stage is read at
  an index through the generated stage lemmas; the host's sums start from the zero word, which is the
  extended real 0 and drops out (0 + s = s).
-/
import proofs.«122088_j55714315764172_1_alg».proof.Proof.Gen.ReferenceIdeal.Read
import proofs.«122088_j55714315764172_1_alg».proof.Proof.UnitDistance

noncomputable section

open scoped BigOperators

namespace Cert.UnitDistance.Reference

open Idealize.ShloMosaic Idealize.ShloMosaic.ValueIdx Cert.ReferenceIdeal Cert.ReferenceIdeal.Read Cert.UnitDistance

/-! ## Where each stage reads its operand -/

theorem row_of_feat (b : Fin 16) (s : Fin 2048) (d e : Fin 256) :
    idx_main_v1 (idx_main_v2 (idx_main_v4 (ix3 b s d))) e = ix3 b s e :=
  funext fun a => by match a with | ⟨0, _⟩ => rfl | ⟨1, _⟩ => rfl | ⟨2, _⟩ => rfl

theorem code_entry (k : Fin 512) (d : Fin 256) : idx_main_v6 (ix2 k d) = ix3 (0 : Fin 1) k d :=
  funext fun a => Fin.ext (by
    have hk : k.val < 512 := k.isLt
    have hd : d.val < 256 := d.isLt
    match a with
    | ⟨0, _⟩ => rfl
    | ⟨1, _⟩ => show (k.val * 256 + d.val) / 256 % 512 = k.val; omega
    | ⟨2, _⟩ => show (k.val * 256 + d.val) % 256 = d.val; omega)

theorem row_of_code (k : Fin 512) (d e : Fin 256) :
    idx_main_v8 (idx_main_v9 (idx_main_v11 (ix2 k d))) e = ix2 k e :=
  funext fun a => by match a with | ⟨0, _⟩ => rfl | ⟨1, _⟩ => rfl

theorem row_of_out_feat (b : Fin 16) (s : Fin 2048) (k : Fin 512) (e : Fin 256) :
    idx_main_v14 (idx_main_v15 (idx_main_v20 (ix3 b s k))) e = ix3 b s e :=
  funext fun a => by match a with | ⟨0, _⟩ => rfl | ⟨1, _⟩ => rfl | ⟨2, _⟩ => rfl

theorem row_of_sq_code (k : Fin 512) (e : Fin 256) : idx_main_v17 (ix1 k) e = ix2 k e :=
  funext fun a => by match a with | ⟨0, _⟩ => rfl | ⟨1, _⟩ => rfl

theorem sq_code_of_out (b : Fin 16) (s : Fin 2048) (k : Fin 512) :
    idx_main_v19 (idx_main_v21 (ix3 b s k)) = ix1 k :=
  funext fun a => by match a with | ⟨0, _⟩ => rfl

theorem lhs_of_out (b : Fin 16) (s : Fin 2048) (k : Fin 512) (e : Fin 256) :
    lidx_main_v18 (ix3 b s k) e = ix3 b s e :=
  funext fun a => by match a with | ⟨0, _⟩ => rfl | ⟨1, _⟩ => rfl | ⟨2, _⟩ => rfl

theorem rhs_of_out (b : Fin 16) (s : Fin 2048) (k : Fin 512) (e : Fin 256) :
    ridx_main_v18 (ix3 b s k) e = ix2 k e :=
  funext fun a => by match a with | ⟨0, _⟩ => rfl | ⟨1, _⟩ => rfl

/-! ## The stages -/

/-- A feature entry divided by the root of its row's sum of squares is the unit vector's coordinate. -/
theorem unit_feat (x0 : FVec Ideal S16x2048x256 .f32) (b : Fin 16) (s : Fin 2048) (d : Fin 256) :
    val_main_v5 (F := Ideal) x0 (ix3 b s d) = unitCoord (featRow x0 b s) d := by
  rw [val_main_v5_apply, val_main_v4_apply, val_main_v3_apply, val_main_v2_apply, val_main_v1_apply]
  simp only [val_main_v0_apply, val_main_cst_apply, Ideal.hostDivf_def, Ideal.hostUnary_sqrt_def, Ideal.mulf_def,
    Ideal.ofBits_def, Ideal.ofBits_zero_f32, zero_add, row_of_feat]
  rfl

/-- A codebook entry divided by the root of its row's sum of squares likewise. -/
theorem unit_code (x1 : FVec Ideal S1x512x256 .f32) (k : Fin 512) (d : Fin 256) :
    val_main_v12 (F := Ideal) x1 (ix2 k d) = unitCoord (codeRow x1 k) d := by
  rw [val_main_v12_apply, val_main_v11_apply, val_main_v10_apply, val_main_v9_apply, val_main_v8_apply]
  simp only [val_main_v7_apply, val_main_v6_apply, val_main_cst_0_apply, Ideal.hostDivf_def, Ideal.hostUnary_sqrt_def,
    Ideal.mulf_def, Ideal.ofBits_def, Ideal.ofBits_zero_f32, zero_add, row_of_code, code_entry]
  rfl

/-- The feature rows' squared unit lengths, broadcast along the codebook axis. -/
theorem sq_feat (x0 : FVec Ideal S16x2048x256 .f32) (b : Fin 16) (s : Fin 2048) (k : Fin 512) :
    val_main_v20 (F := Ideal) x0 (ix3 b s k) = unitSq (featRow x0 b s) := by
  rw [val_main_v20_apply, val_main_v15_apply, val_main_v14_apply]
  simp only [val_main_v13_apply, val_main_cst_1_apply, Ideal.mulf_def, Ideal.ofBits_def, Ideal.ofBits_zero_f32, zero_add,
    row_of_out_feat, unit_feat]
  rfl

/-- The squared unit length of codebook row `k`: the sum of the squares of its unit coordinates. -/
theorem sq_code_row (x1 : FVec Ideal S1x512x256 .f32) (k : Fin 512) :
    val_main_v17 (F := Ideal) x1 (ix1 k) = unitSq (codeRow x1 k) := by
  rw [val_main_v17_apply]
  simp only [val_main_v16_apply, val_main_cst_2_apply, Ideal.mulf_def, Ideal.ofBits_def, Ideal.ofBits_zero_f32, zero_add,
    row_of_sq_code, unit_code]
  rfl

/-- The codebook rows' squared unit lengths, broadcast along the two feature axes. -/
theorem sq_code (x1 : FVec Ideal S1x512x256 .f32) (b : Fin 16) (s : Fin 2048) (k : Fin 512) :
    val_main_v21 (F := Ideal) x1 (ix3 b s k) = unitSq (codeRow x1 k) := by
  rw [val_main_v21_apply, val_main_v19_apply, sq_code_of_out, sq_code_row]

/-- The contraction of the two unit arrays over the coordinate axis. -/
theorem cross (x0 : FVec Ideal S16x2048x256 .f32) (x1 : FVec Ideal S1x512x256 .f32) (b : Fin 16) (s : Fin 2048) (k : Fin 512) :
    val_main_v18 (F := Ideal) x0 x1 (ix3 b s k) = ∑ d : Fin 256, unitCoord (featRow x0 b s) d * unitCoord (codeRow x1 k) d := by
  rw [val_main_v18_apply]
  simp only [lhs_of_out, rhs_of_out, unit_feat, unit_code]

/-- THE REFERENCE'S RESULT is the distance table of its two arguments. -/
theorem result_eq (x0 : FVec Ideal S16x2048x256 .f32) (x1 : FVec Ideal S1x512x256 .f32) :
    val_main_v25 (F := Ideal) x0 x1 = distTable x0 x1 := by
  funext i
  obtain ⟨b, s, k, rfl⟩ : ∃ (b : Fin 16) (s : Fin 2048) (k : Fin 512), i = ix3 b s k := ⟨i 0, i 1, i 2, eq_ix3 i⟩
  rw [val_main_v25_apply, val_main_v22_apply, val_main_v24_apply, val_main_v23_apply, val_main_cst_3_apply,
    sq_feat, sq_code, cross]
  rfl

end Cert.UnitDistance.Reference

end
-- ==== Proof.LibRowColumn.lean ====
/-
  Row sums and the column forms a row sum with kept dimensions passes through, read at an entry.

  A sum along the rows of an [a, b] matrix is a vector of length a; "keeping the dimension" casts it to the column
  [a, 1]; a column is re-laid as the row [1, a] by another cast, and a column is broadcast along the second axis to
  [a, b]. Each lemma reads one of these operations at an index written by its coordinates: the cast and the broadcast
  read the operand at one index, and the row sum at row p is the sum over the columns k of entry (p, k).
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowColumn

open Idealize.ShloMosaic Idealize.ShloMosaic.ValueIdx

variable {α : Type}

/-- A vector [a] cast to the column [a, 1] reads, at (i, u), the operand at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the row [1, a] reads, at (u, i), the operand at (i, 0): both have row-major position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its rows, over the extended reals, read at row p: the sum over the columns k of
    entry (p, k). The accumulator is the sum's neutral word, so nothing is added to it. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.RowColumn

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.BlockValue.lean ====
/-
  What the kernel body stores, read at one entry of its block.

  The body holds a block of 2048 feature rows x0, the whole transposed unit codebook x1 (256 x 512) and the one-row
  array x2 of the codebook rows' squared unit lengths. It divides every row of x0 by the root of the row's sum of
  squares, sums the squares of the quotients along each row, multiplies the quotients into x1 (into the zero
  accumulator; the narrowing of the quotients to the codebook's format is the identity on the extended reals) and
  stores (row's squared unit length + x2) - 2 * product. At entry (p, q) that is
  (|u(x0_p)|² + x2 (0, q)) - 2 * sum_d u(x0_p)_d * x1 (d, q).
-/
import proofs.«122088_j55714315764172_1_alg».proof.Proof.Gen.KernelIdeal.Skeleton
import proofs.«122088_j55714315764172_1_alg».proof.Proof.UnitDistance
import proofs.«122088_j55714315764172_1_alg».proof.Proof.LibRowColumn
import proofs.«122088_j55714315764172_1_alg».proof.Proof.LibPlainMatmul
import Idealize.ShloMosaic.Lib.ValueLayout

noncomputable section

open scoped BigOperators

namespace Cert.UnitDistance.Block

open Idealize.ShloMosaic Idealize.ShloMosaic.ValueIdx Cert.KernelIdeal Cert.KernelIdeal.Gen Cert.UnitDistance

/-- The body's product contracts the left operand's columns with the right operand's rows, no batch axis. -/
theorem dims_plain : dot_S2048x256_S256x512_S2048x512_1_0_0_1_n_n = DotDims.plain 2048 256 512 := rfl

/-- An entry of the block divided by the root of its row's sum of squares (the row sum kept as a column and
    broadcast back along the row) is the coordinate of the row's unit vector. -/
theorem unit_entry (x0 : FVec Ideal S2048x256 .f32) (h : S2048x256.Reduces [1] S2048) (hφ : FKind.Formats .f32)
    (hacc : (0x00000000#32 : BitVec 32) = FKind.add.neutral .f32 hφ) (hc : S2048.ShapeCasts S2048x1)
    (hb : S2048x1.Broadcasts S2048x256) (p : Fin 2048) (d : Fin 256) :
    divf x0 (broadcastTo S2048x256 (sqrt (shapeCast S2048x1 (multiReduction .add [1] S2048 (mulf x0 x0) 0x00000000#32 h hφ hacc) hc)) hb) (ix2 p d)
      = unitCoord (fun e : Fin 256 => x0 (ix2 p e)) d := by
  unfold unitCoord
  show Ideal.div (x0 (ix2 p d)) (broadcastTo S2048x256 (sqrt (shapeCast S2048x1 (multiReduction .add [1] S2048 (mulf x0 x0) 0x00000000#32 h hφ hacc) hc)) hb (ix2 p d))
    = Ideal.div (x0 (ix2 p d)) (Ideal.sqrt (∑ e : Fin 256, x0 (ix2 p e) * x0 (ix2 p e)))
  refine congrArg (Ideal.div (x0 (ix2 p d))) ?_
  refine (Cert.RowColumn.broadcastTo_a1_ab_apply _ hb p d).trans ?_
  show Ideal.sqrt (shapeCast S2048x1 (multiReduction .add [1] S2048 (mulf x0 x0) 0x00000000#32 h hφ hacc) hc (ix2 p (0 : Fin 1))) = _
  refine congrArg Ideal.sqrt ?_
  refine (Cert.RowColumn.shapeCast_a_a1_apply _ hc p 0).trans ?_
  exact Cert.RowColumn.rowSum_apply (mulf x0 x0) _ h hφ hacc p

/-- A row's sum of squares, kept as a column and broadcast along the codebook axis. -/
theorem sq_entry (u : FVec Ideal S2048x256 .f32) (h : S2048x256.Reduces [1] S2048) (hφ : FKind.Formats .f32)
    (hacc : (0x00000000#32 : BitVec 32) = FKind.add.neutral .f32 hφ) (hc : S2048.ShapeCasts S2048x1)
    (hb : S2048x1.Broadcasts S2048x512) (p : Fin 2048) (q : Fin 512) :
    broadcastTo S2048x512 (shapeCast S2048x1 (multiReduction .add [1] S2048 (mulf u u) 0x00000000#32 h hφ hacc) hc) hb (ix2 p q)
      = ∑ d : Fin 256, u (ix2 p d) * u (ix2 p d) := by
  refine (Cert.RowColumn.broadcastTo_a1_ab_apply _ hb p q).trans ?_
  refine (Cert.RowColumn.shapeCast_a_a1_apply _ hc p 0).trans ?_
  exact Cert.RowColumn.rowSum_apply (mulf u u) _ h hφ hacc p

/-- The product into the zero accumulator at entry (p, q): the sum over the coordinate d of u (p, d) * x1 (d, q). -/
theorem cross_entry (u : FVec Ideal S2048x256 .f32) (x1 : FVec Ideal S256x512 .bf16) (hlt : FTy.bits .bf16 < FTy.bits .f32)
    (p : Fin 2048) (q : Fin 512) :
    matmul dot_S2048x256_S256x512_S2048x512_1_0_0_1_n_n none (truncf .bf16 u hlt) x1 (constant S2048x512 .f32 0x00000000#32) (ix2 p q)
      = ∑ d : Fin 256, u (ix2 p d) * x1 (ix2 d q) :=
  Cert.PlainMatmul.apply (M := 2048) (K := 256) (N := 512) none (truncf .bf16 u hlt) x1 p q

/-- THE STORED BLOCK at entry (p, q). -/
theorem block_entry (x0 : FVec Ideal S2048x256 .f32) (x1 : FVec Ideal S256x512 .bf16) (x2 : FVec Ideal S1x512 .f32)
    (p : Fin 2048) (q : Fin 512) :
    k0_pay1 (F := Ideal) x0 x1 x2 (ix2 p q)
      = (unitSq (fun d : Fin 256 => x0 (ix2 p d)) + x2 (ix2 (0 : Fin 1) q))
        - twoWord * ∑ d : Fin 256, unitCoord (fun e : Fin 256 => x0 (ix2 p e)) d * x1 (ix2 d q) := by
  unfold k0_pay1
  simp only [shapeCast_self]
  refine congrArg₂ (fun a b : EReal => a - b) (congrArg₂ (fun a b : EReal => a + b) ?_ ?_) (congrArg₂ (fun a b : EReal => a * b) rfl ?_)
  · refine (sq_entry _ _ _ _ _ _ p q).trans ?_
    unfold unitSq
    exact Finset.sum_congr rfl fun d _ =>
      congrArg₂ (fun a b : EReal => a * b) (unit_entry x0 _ _ _ _ _ p d) (unit_entry x0 _ _ _ _ _ p d)
  · exact broadcastTo_1b_ab_apply x2 _ p q
  · refine (cross_entry _ x1 _ p q).trans ?_
    exact Finset.sum_congr rfl fun d _ =>
      congrArg (fun a : EReal => a * x1 (ix2 d q)) (unit_entry x0 _ _ _ _ _ p d)

end Cert.UnitDistance.Block

end
-- ==== Proof.KernelTable.lean ====
/-
  The kernel's program, read as values: its result array is the distance table of its two arguments.

  The program re-lays the features as 32768 rows, divides every codebook row by its length on the host (the same
  operations the reference applies), transposes the unit codebook, takes the codebook rows' squared unit lengths as
  a one-row array, and launches the body over 16 blocks of 2048 feature rows; block t of the output array is what
  the body stored at point t, the blocks tile the array, and the program's last operation re-lays the 32768 rows
  as 16 x 2048.
-/
import proofs.«122088_j55714315764172_1_alg».proof.Proof.Gen.KernelIdeal.Frame
import proofs.«122088_j55714315764172_1_alg».proof.Proof.BlockValue
import proofs.«122088_j55714315764172_1_alg».proof.Proof.ReferenceTable
import Idealize.ShloMosaic.Lib.Pipeline.Value
import Idealize.ShloMosaic.Lib.StableHlo.Run

noncomputable section

open scoped BigOperators

namespace Cert.UnitDistance.Kernel

open Idealize.ShloMosaic Idealize.ShloMosaic.TcCoe Idealize.SL.Sem Idealize.ShloMosaic.ValueIdx
open Idealize.ShloMosaic.Pipeline (Dat)
open Cert.KernelIdeal Cert.KernelIdeal.Gen Cert.UnitDistance

variable (m : (ℓ : Loc nD τ sig) → Buf (Elt Ideal) ℓ) (ρ : Dev nD → PrngReg)

/-! ## The three arrays the windows stage -/

/-- The features as the region finds them: 32768 rows. -/
abbrev featArr (c : Dev nD) : FVec Ideal S32768x256 .f32 := V m c main_v0
/-- The transposed unit codebook as the region finds it. -/
abbrev codeArr (c : Dev nD) : FVec Ideal S256x512 .bf16 := V m c main_v12
/-- The codebook rows' squared unit lengths as the region finds them. -/
abbrev sqArr (c : Dev nD) : FVec Ideal S1x512 .f32 := V m c main_v13

theorem zero_offsets : (![0, 0] : Fin 2 → Nat) = fun _ => 0 := funext fun a => by fin_cases a <;> rfl

/-- The windows' block indices over the grid: the feature and output windows step down the rows with the point,
    the two codebook windows stay at the one block they have. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point t is rows 2048 t … 2048 t + 2047 of the feature rows. -/
theorem feat_block (c : Dev nD) (t : Fin cfg0.N) (p : Fin 2048) (d : Fin 256) (r : Fin 32768) (hr : r.val = t.val * 2048 + p.val) :
    (iblk m c 0 t : FVec Ideal S2048x256 .f32) (ix2 p d) = featArr m c (ix2 r d) := by
  unfold iblk
  rw [View.read_apply]
  show V m c main_v0 _ = V m c main_v0 _
  refine congrArg (V m c main_v0) (funext fun a => Fin.ext ?_)
  obtain ⟨e0, e1, -⟩ := block_indices t
  match a with
  | ⟨0, _⟩ => show win0_0.index t (0 : Fin 2) * 2048 + 1 * p.val = r.val; rw [e0, hr]; omega
  | ⟨1, _⟩ => show win0_0.index t (1 : Fin 2) * 256 + 1 * d.val = d.val; rw [e1]; omega

/-- The codebook window has one block, the whole transposed unit codebook. -/
theorem code_block (c : Dev nD) (t : Fin cfg0.N) (d : Fin 256) (q : Fin 512) :
    (iblk m c 1 t : FVec Ideal S256x512 .bf16) (ix2 d q) = codeArr m c (ix2 d q) := by
  unfold iblk
  rw [View.read_apply]
  show V m c main_v12 _ = V m c main_v12 _
  refine congrArg (V m c main_v12) (funext fun a => Fin.ext ?_)
  obtain ⟨-, -, e2, e3, -⟩ := block_indices t
  match a with
  | ⟨0, _⟩ => show win0_1.index t (0 : Fin 2) * 256 + 1 * d.val = d.val; rw [e2]; omega
  | ⟨1, _⟩ => show win0_1.index t (1 : Fin 2) * 512 + 1 * q.val = q.val; rw [e3]; omega

/-- The squared-length window has one block, the whole one-row array. -/
theorem sq_block (c : Dev nD) (t : Fin cfg0.N) (q : Fin 512) :
    (iblk m c 2 t : FVec Ideal S1x512 .f32) (ix2 (0 : Fin 1) q) = sqArr m c (ix2 (0 : Fin 1) q) := by
  unfold iblk
  rw [View.read_apply]
  show V m c main_v13 _ = V m c main_v13 _
  refine congrArg (V m c main_v13) (funext fun a => Fin.ext ?_)
  obtain ⟨-, -, -, -, e4, e5, -⟩ := block_indices t
  match a with
  | ⟨0, _⟩ => show win0_2.index t (0 : Fin 2) * 1 + 1 * 0 = 0; rw [e4]
  | ⟨1, _⟩ => show win0_2.index t (1 : Fin 2) * 512 + 1 * q.val = q.val; rw [e5]; omega

/-- A stored block whose feature rows are rows 2048 n … of X and whose other two operands are T and Q is, entry by
    entry, the flat table of X, T and Q at rows 2048 n …. -/
theorem block_is_table (X : FVec Ideal S32768x256 .f32) (T : FVec Ideal S256x512 .bf16) (Q : FVec Ideal S1x512 .f32)
    (x0 : FVec Ideal S2048x256 .f32) (x1 : FVec Ideal S256x512 .bf16) (x2 : FVec Ideal S1x512 .f32) (n : Nat)
    (h0 : ∀ (p : Fin 2048) (d : Fin 256) (r : Fin 32768), r.val = n * 2048 + p.val → x0 (ix2 p d) = X (ix2 r d))
    (h1 : ∀ (d : Fin 256) (q : Fin 512), x1 (ix2 d q) = T (ix2 d q))
    (h2 : ∀ q : Fin 512, x2 (ix2 (0 : Fin 1) q) = Q (ix2 (0 : Fin 1) q))
    (y : S2048x512.Idx) (i : S32768x512.Idx) (hi0 : (i 0).val = n * 2048 + (y 0).val) (hi1 : (i 1).val = (y 1).val) :
    k0_pay1 (F := Ideal) x0 x1 x2 y = flatTable X T Q i := by
  obtain ⟨p, q, rfl⟩ : ∃ (p : Fin 2048) (q : Fin 512), y = ix2 p q := ⟨y 0, y 1, eq_ix2 y⟩
  obtain ⟨r, k, rfl⟩ : ∃ (r : Fin 32768) (k : Fin 512), i = ix2 r k := ⟨i 0, i 1, eq_ix2 i⟩
  obtain rfl : k = q := Fin.ext hi1
  rw [Block.block_entry]
  unfold flatTable
  have hrow : (fun d : Fin 256 => x0 (ix2 p d)) = fun d : Fin 256 => X (ix2 r d) := funext fun d => h0 p d r hi0
  show _ = (unitSq (fun d : Fin 256 => X (ix2 r d)) + Q (ix2 (0 : Fin 1) k))
    - twoWord * ∑ d : Fin 256, unitCoord (fun e : Fin 256 => X (ix2 r e)) d * T (ix2 d k)
  rw [hrow, h2]
  simp only [h1]

/-- WHAT POINT t WRITES BACK is block t of the flat table of the three staged arrays. -/
theorem flushed_eq (c : Dev nD) (t : Fin cfg0.N) :
    (dats m 0 c).flushed 3 t
      = ((cfg0.win 3).blk t).view.read (Elt Ideal) (flatTable (featArr m c) (codeArr m c) (sqArr m c)) := by
  show (cfg0.win 3).cut (grid0.coords t) ((dats m 0 c).after 3 t) = _
  rw [after0_3]
  unfold out0_3
  rw [View.canon_unit_zero zero_offsets]
  simp only [View.ld_unit_zero (S := S2048x256) zero_offsets, View.ld_unit_zero (S := S256x512) zero_offsets,
    View.ld_unit_zero (S := S1x512) zero_offsets]
  funext j
  obtain ⟨-, -, -, -, -, -, e6, e7⟩ := block_indices t
  show k0_pay1 (F := Ideal) (iblk m c 0 t) (iblk m c 1 t) (iblk m c 2 t) ((cfg0.win 3).xinj (grid0.coords t) j)
    = flatTable (featArr m c) (codeArr m c) (sqArr m c) (((cfg0.win 3).blk t).view.emb j)
  exact block_is_table (featArr m c) (codeArr m c) (sqArr m c) (iblk m c 0 t) (iblk m c 1 t) (iblk m c 2 t) t.val
    (fun p d r hr => feat_block m c t p d r hr) (code_block m c t) (sq_block m c t) _ _
    (by show win0_3.index t (0 : Fin 2) * 2048 + 1 * (j 0).val = t.val * 2048 + (j 0).val; rw [e6]; omega)
    (by show win0_3.index t (1 : Fin 2) * 512 + 1 * (j 1).val = (j 1).val; rw [e7]; omega)

/-- An index of the output array is in point t's block iff each coordinate is in the block's range on its axis. -/
theorem mem_block (t : Fin cfg0.N) (i : S32768x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v14).slice (win0_3.rect t)).set ↔ _
  rw [View.set_slice_whole, Rect.mem_set_unit]
  exact Iff.rfl

/-- The 16 blocks tile the output array: row r lies in the block of point r / 2048. -/
theorem covered (i : S32768x512.Idx) :
    ∃ t : Fin cfg0.N, (cfg0.win 3).flush t = true ∧ i ∈ ((cfg0.win 3).blk t).view.set := by
  have h0 : (i 0).val < 32768 := (i 0).isLt
  have h1 : (i 1).val < 512 := (i 1).isLt
  have hN : cfg0.N = 16 := N_0
  have hlt : (i 0).val / 2048 < cfg0.N := by rw [hN]; omega
  obtain ⟨-, -, -, -, -, -, e6, e7⟩ := block_indices ⟨(i 0).val / 2048, hlt⟩
  refine ⟨⟨(i 0).val / 2048, hlt⟩, flush0_3 _, ?_⟩
  rw [mem_block]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, hlt⟩ (1 : Fin 2) * 512 ≤ (i 1).val
      ∧ (i 1).val < win0_3.index ⟨(i 0).val / 2048, hlt⟩ (1 : Fin 2) * 512 + 512
    rw [e7]; omega

/-- THE OUTPUT ARRAY after the run is the flat table of the three staged arrays. -/
theorem final (c : Dev nD) :
    (dats m 0 c).arrAt 3 cfg0.N = flatTable (featArr m c) (codeArr m c) (sqArr m c) :=
  (dats m 0 c).arrAt_eq_of_cover 3 _ (fun t _ => flushed_eq m c t) covered

/-! ## The staged arrays, from the program's arguments -/

/-- The feature rows are the feature array re-laid. -/
theorem featArr_eq (c : Dev nD) :
    featArr m c = shapeCast S32768x256 (m ((c : Thread nD τ).loc main_arg0)) shapeCasts_S16x2048x256_S32768x256 := by
  show StableHlo.after hostOps0 (fun b => m (c, b)) (Proc.devRef .tc main_v0) = _
  after_results; rfl

/-- The staged codebook is the unit codebook (every row divided by its length, by the operations the reference
    applies), transposed; its narrowing to the staged format is the identity on the extended reals. -/
theorem codeArr_eq (c : Dev nD) :
    codeArr m c = truncf .bf16 (transpose S256x512 [1, 0]
      (Cert.ReferenceIdeal.Read.val_main_v12 (F := Ideal) (m ((c : Thread nD τ).loc main_arg1))) transposes_S512x256_S256x512_1_0)
      bitsLt_bf16_f32 := by
  show StableHlo.after hostOps0 (fun b => m (c, b)) (Proc.devRef .tc main_v12) = _
  after_results; rfl

/-- The staged squared lengths are the unit codebook's row sums of squares, kept as a column and re-laid as one row. -/
theorem sqArr_eq (c : Dev nD) :
    sqArr m c = shapeCast S1x512 (broadcastInDim S512x1 ![0] bcast_S512_S512x1_0
      (Cert.ReferenceIdeal.Read.val_main_v17 (F := Ideal) (m ((c : Thread nD τ).loc main_arg1)))) shapeCasts_S512x1_S1x512 := by
  show StableHlo.after hostOps0 (fun b => m (c, b)) (Proc.devRef .tc main_v13) = _
  after_results; rfl

/-- Feature row r = 2048 b + s is row (b, s) of the feature array. -/
theorem featArr_entry (c : Dev nD) (b : Fin 16) (s : Fin 2048) (d : Fin 256) (r : Fin 32768) (hr : r.val = b.val * 2048 + s.val) :
    featArr m c (ix2 r d) = (m ((c : Thread nD τ).loc main_arg0) : FVec Ideal S16x2048x256 .f32) (ix3 b s d) := by
  rw [featArr_eq]
  exact shapeCast_apply _ _ (ix2 r d) (ix3 b s d) (by
    rw [Shape.rowMajor_val_three, Shape.rowMajor_val_two]
    show (b.val * 2048 + s.val) * 256 + d.val = r.val * 256 + d.val
    rw [hr])

/-- Entry (d, k) of the staged codebook is coordinate d of the unit vector of codebook row k. -/
theorem codeArr_entry (c : Dev nD) (d : Fin 256) (k : Fin 512) :
    codeArr m c (ix2 d k) = unitCoord (codeRow (m ((c : Thread nD τ).loc main_arg1)) k) d := by
  rw [codeArr_eq]
  show transpose S256x512 [1, 0] (Cert.ReferenceIdeal.Read.val_main_v12 (F := Ideal) (m ((c : Thread nD τ).loc main_arg1)))
    transposes_S512x256_S256x512_1_0 (ix2 d k) = _
  refine (transpose_ix2_apply (a := 512) (b := 256) _ _ d k).trans ?_
  exact Reference.unit_code _ k d

/-- Entry k of the staged squared lengths is the squared unit length of codebook row k. -/
theorem sqArr_entry (c : Dev nD) (k : Fin 512) :
    sqArr m c (ix2 (0 : Fin 1) k) = unitSq (codeRow (m ((c : Thread nD τ).loc main_arg1)) k) := by
  rw [sqArr_eq]
  refine (Cert.RowColumn.shapeCast_a1_1a_apply _ _ (0 : Fin 1) k).trans ?_
  refine (broadcastInDim_apply _ _ _ (ix2 k (0 : Fin 1)) (ix1 k) (fun a => match a with
    | ⟨0, _⟩ => by show k.val = if (512 : Nat) = 1 then 0 else k.val; rw [if_neg (by decide)])).trans ?_
  exact Reference.sq_code_row _ k

/-- The flat table of the staged arrays at row 2048 b + s is the distance table of the arguments at (b, s). -/
theorem table_entry (c : Dev nD) (b : Fin 16) (s : Fin 2048) (k : Fin 512) (r : Fin 32768) (hr : r.val = b.val * 2048 + s.val) :
    flatTable (featArr m c) (codeArr m c) (sqArr m c) (ix2 r k)
      = distTable (m ((c : Thread nD τ).loc main_arg0)) (m ((c : Thread nD τ).loc main_arg1)) (ix3 b s k) := by
  unfold flatTable distTable unitDist
  have hrow : (fun d : Fin 256 => featArr m c (ix2 r d)) = featRow (m ((c : Thread nD τ).loc main_arg0)) b s :=
    funext fun d => featArr_entry m c b s d r hr
  show (unitSq (fun d : Fin 256 => featArr m c (ix2 r d)) + sqArr m c (ix2 (0 : Fin 1) k))
      - twoWord * ∑ d : Fin 256, unitCoord (fun e : Fin 256 => featArr m c (ix2 r e)) d * codeArr m c (ix2 d k)
    = (unitSq (featRow (m ((c : Thread nD τ).loc main_arg0)) b s) + unitSq (codeRow (m ((c : Thread nD τ).loc main_arg1)) k))
      - twoWord * ∑ d : Fin 256, unitCoord (featRow (m ((c : Thread nD τ).loc main_arg0)) b s) d
          * unitCoord (codeRow (m ((c : Thread nD τ).loc main_arg1)) k) d
  rw [hrow, sqArr_entry]
  refine congrArg (fun a : EReal => (unitSq (featRow (m ((c : Thread nD τ).loc main_arg0)) b s)
      + unitSq (codeRow (m ((c : Thread nD τ).loc main_arg1)) k)) - twoWord * a) (Finset.sum_congr rfl fun d _ => ?_)
  exact congrArg (fun a : EReal => unitCoord (featRow (m ((c : Thread nD τ).loc main_arg0)) b s) d * a) (codeArr_entry m c d k)

/-! ## The program's last operation, and the run -/

/-- The result buffer after the operation that follows the region: the output array's 32768 rows re-laid as
    16 x 2048, which is the distance table of the arguments. -/
theorem result (c : Dev nD) :
    Pipeline.afterTail₀ cfgs (dats m) 0 (V0 m) [hostOps1] c main_v15
      = distTable (m ((c : Thread nD τ).loc main_arg0)) (m ((c : Thread nD τ).loc main_arg1)) := by
  unfold Pipeline.afterTail₀
  show StableHlo.after hostOps1 _ (Proc.devRef .tc main_v15) = _
  after_results
  funext i
  obtain ⟨b, s, k, rfl⟩ : ∃ (b : Fin 16) (s : Fin 2048) (k : Fin 512), i = ix3 b s k := ⟨i 0, i 1, i 2, eq_ix3 i⟩
  have hlt : b.val * 2048 + s.val < 32768 := by have := b.isLt; have := s.isLt; omega
  have harr : Pipeline.withArrays (cfgs 0).spec c (V0 m c) (fun w => (dats m 0 c).arrAt w (cfgs 0).N) (Proc.devRef .tc main_v14)
      = flatTable (featArr m c) (codeArr m c) (sqArr m c) :=
    (Pipeline.withArrays_arr spec0 launch0.win.arr_inj c _ _ 3).trans (final m c)
  show shapeCast S16x2048x512 (Pipeline.withArrays (cfgs 0).spec c (V0 m c) (fun w => (dats m 0 c).arrAt w (cfgs 0).N)
    (Proc.devRef .tc main_v14)) shapeCasts_S32768x512_S16x2048x512 (ix3 b s k) = _
  refine (shapeCast_apply _ _ (ix3 b s k) (ix2 (⟨b.val * 2048 + s.val, hlt⟩ : Fin 32768) k) (by
    rw [Shape.rowMajor_val_two, Shape.rowMajor_val_three]; rfl)).trans ?_
  exact (congrFun harr _).trans (table_entry m c b s k _ rfl)

/-- THE RUN, READ: every weakly fair execution ends with the result buffer at the distance table of the arguments
    and the arguments as launched. -/
theorem run : θ_run defs (onTc (τ := τ) (main (F := Ideal))) ⟨m, fun _ => 0, ρ⟩ fun r => ∀ c : Dev nD,
      r.2.mem ((c.tc : Thread nD τ).loc main_v15)
        = distTable (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v15 (Pipeline.mem_restRefs_of main_v15 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.UnitDistance.Kernel

end
-- ==== Proof.lean ====
/-
  The certificate's claims.

  Both programs compute, for every feature row x and every codebook row c, the squared distance between the unit
  vectors x / |x| and c / |c| in the expanded form (|u(x)|² + |u(c)|²) - 2 * (u(x) . u(c)), with u(v)_d =
  v_d / sqrt (sum_e v_e²). The kernel does the feature side inside its body, 2048 rows at a time, and the
  codebook side on the host before the launch; the reference does everything on the host. Over the extended reals
  the two are one expression tree, entry by entry: the order of a sum and the change of float format do not
  matter there, and the zero word the host's sums start from is 0. No finiteness of the inputs is used.
-/
import proofs.«122088_j55714315764172_1_alg».proof.Defs
import proofs.«122088_j55714315764172_1_alg».proof.Proof.Gen.Kernel
import proofs.«122088_j55714315764172_1_alg».proof.Proof.Gen.Kernel.Skeleton
import proofs.«122088_j55714315764172_1_alg».proof.Proof.Gen.Kernel.Launch
import proofs.«122088_j55714315764172_1_alg».proof.Proof.Gen.Kernel.Points
import proofs.«122088_j55714315764172_1_alg».proof.Proof.Gen.Kernel.Frame
import proofs.«122088_j55714315764172_1_alg».proof.Proof.Gen.KernelIdeal
import proofs.«122088_j55714315764172_1_alg».proof.Proof.Gen.KernelIdeal.Skeleton
import proofs.«122088_j55714315764172_1_alg».proof.Proof.Gen.KernelIdeal.Launch
import proofs.«122088_j55714315764172_1_alg».proof.Proof.Gen.KernelIdeal.Points
import proofs.«122088_j55714315764172_1_alg».proof.Proof.Gen.KernelIdeal.Frame
import proofs.«122088_j55714315764172_1_alg».proof.Proof.Gen.ReferenceIdeal
import proofs.«122088_j55714315764172_1_alg».proof.Proof.Gen.Pre_finite_inputs
import proofs.«122088_j55714315764172_1_alg».proof.Proof.Gen.ReferenceIdeal.Run
import proofs.«122088_j55714315764172_1_alg».proof.Proof.Gen.ReferenceIdeal.Read
import proofs.«122088_j55714315764172_1_alg».proof.Proof.ReferenceTable
import proofs.«122088_j55714315764172_1_alg».proof.Proof.KernelTable
import Idealize.ShloMosaic.Adequacy
import Idealize.ShloMosaic.Init

noncomputable section

namespace Cert.Proof

open Idealize.ShloMosaic Idealize.ShloMosaic.TcCoe Idealize.SL.Sem Cert.UnitDistance

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the distance table of the (agreeing) arguments in their result buffers. -/
theorem algebraic : Cert.algebraic_KernelIdeal_ReferenceIdeal := by
  intro m ρ m' ρ' _ hagree
  refine ⟨fun c => distTable (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.UnitDistance.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.UnitDistance.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
